-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64x64 : Shape := ⟨4, ![8, 256, 64, 64]⟩
abbrev S8x32x9x64x64 : Shape := ⟨5, ![8, 32, 9, 64, 64]⟩
abbrev S_ : Shape := ⟨0, ![]⟩

class Facts : Prop where
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  h_S_ : 0 < S_.numel
  bcast_S_S8x32x9x64x64 : S_.BroadcastsInDim S8x32x9x64x64 (![] : Fin 0 → Fin S8x32x9x64x64.rank)
  reducesTo_S8x32x9x64x64_S_d0_1_2_3_4 : S8x32x9x64x64.ReducesTo [0, 1, 2, 3, 4] S_

variable [Facts]

def fn {F : FTy → Type} [FloatOps F] (main_arg0 : FVec F S8x256x64x64 .f32) (main_arg1 : FVec F S8x32x9x64x64 .f32) : IVec S_ 1 :=
  let main_v0 : FVec F S8x256x64x64 .f32 := Host.absf main_arg0
  let main_cst : FVec F S_ .f32 := constant S_ .f32 0x7F800000#32
  let main_v1 : FVec F S8x256x64x64 .f32 := broadcastInDim S8x256x64x64 ![] bcast_S_S8x256x64x64 main_cst
  let main_v2 : IVec S8x256x64x64 1 := cmpf .olt main_v0 main_v1
  let main_c : IVec S_ 1 := constantI S_ 1 1#1
  let main_v3 : IVec S_ 1 := (fun x v => Host.reduce IntOp.andi x v reducesTo_S8x256x64x64_S_d0_1_2_3 h_S_) main_v2 main_c
  let main_v4 : FVec F S8x32x9x64x64 .f32 := Host.absf main_arg1
  let main_cst_0 : FVec F S_ .f32 := constant S_ .f32 0x7F800000#32
  let main_v5 : FVec F S8x32x9x64x64 .f32 := broadcastInDim S8x32x9x64x64 ![] bcast_S_S8x32x9x64x64 main_cst_0
  let main_v6 : IVec S8x32x9x64x64 1 := cmpf .olt main_v4 main_v5
  let main_c_1 : IVec S_ 1 := constantI S_ 1 1#1
  let main_v7 : IVec S_ 1 := (fun x v => Host.reduce IntOp.andi x v reducesTo_S8x32x9x64x64_S_d0_1_2_3_4 h_S_) main_v6 main_c_1
  let main_v8 : IVec S_ 1 := andi main_v3 main_v7
  main_v8
-- ==== Kernel.lean ====
abbrev S8x256x64x64 : Shape := ⟨4, ![8, 256, 64, 64]⟩
abbrev S8x32x9x64x64 : Shape := ⟨5, ![8, 32, 9, 64, 64]⟩
abbrev S1x128x64x64 : Shape := ⟨4, ![1, 128, 64, 64]⟩
abbrev S1x16x9x64x64 : Shape := ⟨5, ![1, 16, 9, 64, 64]⟩
abbrev S128x64x64 : Shape := ⟨3, ![128, 64, 64]⟩
abbrev S16x8x64x64 : Shape := ⟨4, ![16, 8, 64, 64]⟩
abbrev S16x8x1x64 : Shape := ⟨4, ![16, 8, 1, 64]⟩
abbrev S16x8x66x64 : Shape := ⟨4, ![16, 8, 66, 64]⟩
abbrev S16x8x66x1 : Shape := ⟨4, ![16, 8, 66, 1]⟩
abbrev S16x8x66x66 : Shape := ⟨4, ![16, 8, 66, 66]⟩
abbrev S16x9x64x64 : Shape := ⟨4, ![16, 9, 64, 64]⟩
abbrev S16x1x64x64 : Shape := ⟨4, ![16, 1, 64, 64]⟩
abbrev S16x64x64 : Shape := ⟨3, ![16, 64, 64]⟩

abbrev nBuf : Space → Nat
  | .hbm => 3
  | .vmem => 6
  | .smem => 0
  | _ => 0

abbrev bufTy : (tb : Table) → Fin (tcTables nBuf tb) → BufTy
  | .hbm, ⟨0, _⟩ => ⟨S8x256x64x64, .f32⟩
  | .hbm, ⟨1, _⟩ => ⟨S8x32x9x64x64, .f32⟩
  | .hbm, ⟨2, _⟩ => ⟨S8x256x64x64, .f32⟩
  | .local _ .vmem, ⟨0, _⟩ => ⟨S1x128x64x64, .f32⟩
  | .local _ .vmem, ⟨1, _⟩ => ⟨S1x128x64x64, .f32⟩
  | .local _ .vmem, ⟨2, _⟩ => ⟨S1x16x9x64x64, .f32⟩
  | .local _ .vmem, ⟨3, _⟩ => ⟨S1x16x9x64x64, .f32⟩
  | .local _ .vmem, ⟨4, _⟩ => ⟨S1x128x64x64, .f32⟩
  | .local _ .vmem, ⟨5, _⟩ => ⟨S1x128x64x64, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x9x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x128x64x64_S1x128x64x64_0_0_0_0 : ∀ a, (![0, 0, 0, 0] : Fin 4 → Nat) a + S1x128x64x64.size a ≤ S1x128x64x64.size a
  h_S1x128x64x64 : 0 < S1x128x64x64.numel
  shapeCasts_S1x128x64x64_S128x64x64 : S1x128x64x64.ShapeCasts S128x64x64
  shapeCasts_S128x64x64_S16x8x64x64 : S128x64x64.ShapeCasts S16x8x64x64
  concatenates_S16x8x1x64_S16x8x64x64_S16x8x1x64_S16x8x66x64_d2 : Shape.Concatenates [S16x8x1x64, S16x8x64x64, S16x8x1x64] S16x8x66x64 2
  concatenates_S16x8x66x1_S16x8x66x64_S16x8x66x1_S16x8x66x66_d3 : Shape.Concatenates [S16x8x66x1, S16x8x66x64, S16x8x66x1] S16x8x66x66 3
  inb_S1x16x9x64x64_S1x16x9x64x64_0_0_0_0_0 : ∀ a, (![0, 0, 0, 0, 0] : Fin 5 → Nat) a + S1x16x9x64x64.size a ≤ S1x16x9x64x64.size a
  h_S1x16x9x64x64 : 0 < S1x16x9x64x64.numel
  shapeCasts_S1x16x9x64x64_S16x9x64x64 : S1x16x9x64x64.ShapeCasts S16x9x64x64
  slices_S16x8x66x66_o0_0_0_0_S16x8x64x64 : S16x8x66x66.Slices ![0, 0, 0, 0] S16x8x64x64
  slices_S16x9x64x64_o0_0_0_0_S16x1x64x64 : S16x9x64x64.Slices ![0, 0, 0, 0] S16x1x64x64
  shapeCasts_S16x1x64x64_S16x64x64 : S16x1x64x64.ShapeCasts S16x64x64
  shapeCasts_S16x64x64_S16x1x64x64 : S16x64x64.ShapeCasts S16x1x64x64
  broadcasts_S16x1x64x64_S16x8x64x64 : S16x1x64x64.Broadcasts S16x8x64x64
  slices_S16x8x66x66_o0_0_0_1_S16x8x64x64 : S16x8x66x66.Slices ![0, 0, 0, 1] S16x8x64x64
  slices_S16x9x64x64_o0_1_0_0_S16x1x64x64 : S16x9x64x64.Slices ![0, 1, 0, 0] S16x1x64x64
  slices_S16x8x66x66_o0_0_0_2_S16x8x64x64 : S16x8x66x66.Slices ![0, 0, 0, 2] S16x8x64x64
  slices_S16x9x64x64_o0_2_0_0_S16x1x64x64 : S16x9x64x64.Slices ![0, 2, 0, 0] S16x1x64x64
  slices_S16x8x66x66_o0_0_1_0_S16x8x64x64 : S16x8x66x66.Slices ![0, 0, 1, 0] S16x8x64x64
  slices_S16x9x64x64_o0_3_0_0_S16x1x64x64 : S16x9x64x64.Slices ![0, 3, 0, 0] S16x1x64x64
  slices_S16x8x66x66_o0_0_1_1_S16x8x64x64 : S16x8x66x66.Slices ![0, 0, 1, 1] S16x8x64x64
  slices_S16x9x64x64_o0_4_0_0_S16x1x64x64 : S16x9x64x64.Slices ![0, 4, 0, 0] S16x1x64x64
  slices_S16x8x66x66_o0_0_1_2_S16x8x64x64 : S16x8x66x66.Slices ![0, 0, 1, 2] S16x8x64x64
  slices_S16x9x64x64_o0_5_0_0_S16x1x64x64 : S16x9x64x64.Slices ![0, 5, 0, 0] S16x1x64x64
  slices_S16x8x66x66_o0_0_2_0_S16x8x64x64 : S16x8x66x66.Slices ![0, 0, 2, 0] S16x8x64x64
  slices_S16x9x64x64_o0_6_0_0_S16x1x64x64 : S16x9x64x64.Slices ![0, 6, 0, 0] S16x1x64x64
  slices_S16x8x66x66_o0_0_2_1_S16x8x64x64 : S16x8x66x66.Slices ![0, 0, 2, 1] S16x8x64x64
  slices_S16x9x64x64_o0_7_0_0_S16x1x64x64 : S16x9x64x64.Slices ![0, 7, 0, 0] S16x1x64x64
  slices_S16x8x66x66_o0_0_2_2_S16x8x64x64 : S16x8x66x66.Slices ![0, 0, 2, 2] S16x8x64x64
  slices_S16x9x64x64_o0_8_0_0_S16x1x64x64 : S16x9x64x64.Slices ![0, 8, 0, 0] S16x1x64x64
  shapeCasts_S16x8x64x64_S128x64x64 : S16x8x64x64.ShapeCasts S128x64x64
  shapeCasts_S128x64x64_S1x128x64x64 : S128x64x64.ShapeCasts S1x128x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64x64.size a ≤ S8x256x64x64.size a
  hwx0_0 : ∀ i : grid0.Coords, EltTy.bits .f32 = 32 ∨ (Rect.block (s := S8x256x64x64) S1x128x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x9x64x64.size a ≤ S8x32x9x64x64.size a
  hwx0_1 : ∀ i : grid0.Coords, EltTy.bits .f32 = 32 ∨ (Rect.block (s := S8x32x9x64x64) S1x16x9x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x64x64.size a ≤ S8x256x64x64.size a
  hwx0_2 : ∀ i : grid0.Coords, EltTy.bits .f32 = 32 ∨ (Rect.block (s := S8x256x64x64) S1x128x64x64.size (cc0_transform_2 i) (hinb0_2 i)).WholeWords (EltTy.packing .f32)

variable [Facts₀]

abbrev win0_0 : Pipeline.Window sig grid0 :=
  Pipeline.Window.ofSpec (Memref.whole main_arg0) S1x128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x9x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x256x64x64 : Shape := ⟨4, ![8, 256, 64, 64]⟩
abbrev S8x32x9x64x64 : Shape := ⟨5, ![8, 32, 9, 64, 64]⟩
abbrev S_ : Shape := ⟨0, ![]⟩
abbrev S8x256x66x66 : Shape := ⟨4, ![8, 256, 66, 66]⟩
abbrev S8x32x8x64x64 : Shape := ⟨5, ![8, 32, 8, 64, 64]⟩
abbrev S8x32x1x64x64 : Shape := ⟨5, ![8, 32, 1, 64, 64]⟩
abbrev S8x32x64x64 : Shape := ⟨4, ![8, 32, 64, 64]⟩

abbrev nBuf : Space → Nat
  | .hbm => 80
  | .vmem => 0
  | .smem => 0
  | _ => 0

abbrev bufTy : (tb : Table) → Fin (tcTables nBuf tb) → BufTy
  | .hbm, ⟨0, _⟩ => ⟨S8x256x64x64, .f32⟩
  | .hbm, ⟨1, _⟩ => ⟨S8x32x9x64x64, .f32⟩
  | .hbm, ⟨2, _⟩ => ⟨S_, .i32⟩
  | .hbm, ⟨3, _⟩ => ⟨S_, .f32⟩
  | .hbm, ⟨4, _⟩ => ⟨S8x256x66x66, .f32⟩
  | .hbm, ⟨5, _⟩ => ⟨S_, .f32⟩
  | .hbm, ⟨6, _⟩ => ⟨S8x32x8x64x64, .f32⟩
  | .hbm, ⟨7, _⟩ => ⟨S8x256x64x64, .f32⟩
  | .hbm, ⟨8, _⟩ => ⟨S8x32x8x64x64, .f32⟩
  | .hbm, ⟨9, _⟩ => ⟨S8x32x1x64x64, .f32⟩
  | .hbm, ⟨10, _⟩ => ⟨S8x32x64x64, .f32⟩
  | .hbm, ⟨11, _⟩ => ⟨S8x32x1x64x64, .f32⟩
  | .hbm, ⟨12, _⟩ => ⟨S8x32x8x64x64, .f32⟩
  | .hbm, ⟨13, _⟩ => ⟨S8x32x8x64x64, .f32⟩
  | .hbm, ⟨14, _⟩ => ⟨S8x32x8x64x64, .f32⟩
  | .hbm, ⟨15, _⟩ => ⟨S8x256x64x64, .f32⟩
  | .hbm, ⟨16, _⟩ => ⟨S8x32x8x64x64, .f32⟩
  | .hbm, ⟨17, _⟩ => ⟨S8x32x1x64x64, .f32⟩
  | .hbm, ⟨18, _⟩ => ⟨S8x32x64x64, .f32⟩
  | .hbm, ⟨19, _⟩ => ⟨S8x32x1x64x64, .f32⟩
  | .hbm, ⟨20, _⟩ => ⟨S8x32x8x64x64, .f32⟩
  | .hbm, ⟨21, _⟩ => ⟨S8x32x8x64x64, .f32⟩
  | .hbm, ⟨22, _⟩ => ⟨S8x32x8x64x64, .f32⟩
  | .hbm, ⟨23, _⟩ => ⟨S8x256x64x64, .f32⟩
  | .hbm, ⟨24, _⟩ => ⟨S8x32x8x64x64, .f32⟩
  | .hbm, ⟨25, _⟩ => ⟨S8x32x1x64x64, .f32⟩
  | .hbm, ⟨26, _⟩ => ⟨S8x32x64x64, .f32⟩
  | .hbm, ⟨27, _⟩ => ⟨S8x32x1x64x64, .f32⟩
  | .hbm, ⟨28, _⟩ => ⟨S8x32x8x64x64, .f32⟩
  | .hbm, ⟨29, _⟩ => ⟨S8x32x8x64x64, .f32⟩
  | .hbm, ⟨30, _⟩ => ⟨S8x32x8x64x64, .f32⟩
  | .hbm, ⟨31, _⟩ => ⟨S8x256x64x64, .f32⟩
  | .hbm, ⟨32, _⟩ => ⟨S8x32x8x64x64, .f32⟩
  | .hbm, ⟨33, _⟩ => ⟨S8x32x1x64x64, .f32⟩
  | .hbm, ⟨34, _⟩ => ⟨S8x32x64x64, .f32⟩
  | .hbm, ⟨35, _⟩ => ⟨S8x32x1x64x64, .f32⟩
  | .hbm, ⟨36, _⟩ => ⟨S8x32x8x64x64, .f32⟩
  | .hbm, ⟨37, _⟩ => ⟨S8x32x8x64x64, .f32⟩
  | .hbm, ⟨38, _⟩ => ⟨S8x32x8x64x64, .f32⟩
  | .hbm, ⟨39, _⟩ => ⟨S8x256x64x64, .f32⟩
  | .hbm, ⟨40, _⟩ => ⟨S8x32x8x64x64, .f32⟩
  | .hbm, ⟨41, _⟩ => ⟨S8x32x1x64x64, .f32⟩
  | .hbm, ⟨42, _⟩ => ⟨S8x32x64x64, .f32⟩
  | .hbm, ⟨43, _⟩ => ⟨S8x32x1x64x64, .f32⟩
  | .hbm, ⟨44, _⟩ => ⟨S8x32x8x64x64, .f32⟩
  | .hbm, ⟨45, _⟩ => ⟨S8x32x8x64x64, .f32⟩
  | .hbm, ⟨46, _⟩ => ⟨S8x32x8x64x64, .f32⟩
  | .hbm, ⟨47, _⟩ => ⟨S8x256x64x64, .f32⟩
  | .hbm, ⟨48, _⟩ => ⟨S8x32x8x64x64, .f32⟩
  | .hbm, ⟨49, _⟩ => ⟨S8x32x1x64x64, .f32⟩
  | .hbm, ⟨50, _⟩ => ⟨S8x32x64x64, .f32⟩
  | .hbm, ⟨51, _⟩ => ⟨S8x32x1x64x64, .f32⟩
  | .hbm, ⟨52, _⟩ => ⟨S8x32x8x64x64, .f32⟩
  | .hbm, ⟨53, _⟩ => ⟨S8x32x8x64x64, .f32⟩
  | .hbm, ⟨54, _⟩ => ⟨S8x32x8x64x64, .f32⟩
  | .hbm, ⟨55, _⟩ => ⟨S8x256x64x64, .f32⟩
  | .hbm, ⟨56, _⟩ => ⟨S8x32x8x64x64, .f32⟩
  | .hbm, ⟨57, _⟩ => ⟨S8x32x1x64x64, .f32⟩
  | .hbm, ⟨58, _⟩ => ⟨S8x32x64x64, .f32⟩
  | .hbm, ⟨59, _⟩ => ⟨S8x32x1x64x64, .f32⟩
  | .hbm, ⟨60, _⟩ => ⟨S8x32x8x64x64, .f32⟩
  | .hbm, ⟨61, _⟩ => ⟨S8x32x8x64x64, .f32⟩
  | .hbm, ⟨62, _⟩ => ⟨S8x32x8x64x64, .f32⟩
  | .hbm, ⟨63, _⟩ => ⟨S8x256x64x64, .f32⟩
  | .hbm, ⟨64, _⟩ => ⟨S8x32x8x64x64, .f32⟩
  | .hbm, ⟨65, _⟩ => ⟨S8x32x1x64x64, .f32⟩
  | .hbm, ⟨66, _⟩ => ⟨S8x32x64x64, .f32⟩
  | .hbm, ⟨67, _⟩ => ⟨S8x32x1x64x64, .f32⟩
  | .hbm, ⟨68, _⟩ => ⟨S8x32x8x64x64, .f32⟩
  | .hbm, ⟨69, _⟩ => ⟨S8x32x8x64x64, .f32⟩
  | .hbm, ⟨70, _⟩ => ⟨S8x32x8x64x64, .f32⟩
  | .hbm, ⟨71, _⟩ => ⟨S8x256x64x64, .f32⟩
  | .hbm, ⟨72, _⟩ => ⟨S8x32x8x64x64, .f32⟩
  | .hbm, ⟨73, _⟩ => ⟨S8x32x1x64x64, .f32⟩
  | .hbm, ⟨74, _⟩ => ⟨S8x32x64x64, .f32⟩
  | .hbm, ⟨75, _⟩ => ⟨S8x32x1x64x64, .f32⟩
  | .hbm, ⟨76, _⟩ => ⟨S8x32x8x64x64, .f32⟩
  | .hbm, ⟨77, _⟩ => ⟨S8x32x8x64x64, .f32⟩
  | .hbm, ⟨78, _⟩ => ⟨S8x32x8x64x64, .f32⟩
  | .hbm, ⟨79, _⟩ => ⟨S8x256x64x64, .f32⟩
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩

abbrev nD : Nat := 1
abbrev τ : Topo := Topo.v7x

variable {F : FTy → Type} [FloatOps F]

class Facts₀ : Prop where
  pads_S8x256x64x64_S8x256x66x66_000_000_110_110 : S8x256x64x64.Pads (![0, 0, 1, 1] : Fin 4 → Nat) ![0, 0, 1, 1] ![0, 0, 0, 0] S8x256x66x66
  h_S_ : 0 < S_.numel
  bcast_S_S8x32x8x64x64 : S_.BroadcastsInDim S8x32x8x64x64 (![] : Fin 0 → Fin S8x32x8x64x64.rank)
  slices_S8x256x66x66_S8x256x64x64_0_0_0_0 : S8x256x66x66.Slices ![0, 0, 0, 0] S8x256x64x64
  shapeCasts_S8x256x64x64_S8x32x8x64x64 : S8x256x64x64.ShapeCasts S8x32x8x64x64
  slices_S8x32x9x64x64_S8x32x1x64x64_0_0_0_0_0 : S8x32x9x64x64.Slices ![0, 0, 0, 0, 0] S8x32x1x64x64
  shapeCasts_S8x32x1x64x64_S8x32x64x64 : S8x32x1x64x64.ShapeCasts S8x32x64x64
  bcast_S8x32x64x64_S8x32x1x64x64_0_1_3_4 : S8x32x64x64.BroadcastsInDim S8x32x1x64x64 (![0, 1, 3, 4] : Fin 4 → Fin S8x32x1x64x64.rank)
  bcast_S8x32x1x64x64_S8x32x8x64x64_0_1_2_3_4 : S8x32x1x64x64.BroadcastsInDim S8x32x8x64x64 (![0, 1, 2, 3, 4] : Fin 5 → Fin S8x32x8x64x64.rank)
  slices_S8x256x66x66_S8x256x64x64_0_0_0_1 : S8x256x66x66.Slices ![0, 0, 0, 1] S8x256x64x64
  slices_S8x32x9x64x64_S8x32x1x64x64_0_0_1_0_0 : S8x32x9x64x64.Slices ![0, 0, 1, 0, 0] S8x32x1x64x64
  slices_S8x256x66x66_S8x256x64x64_0_0_0_2 : S8x256x66x66.Slices ![0, 0, 0, 2] S8x256x64x64
  slices_S8x32x9x64x64_S8x32x1x64x64_0_0_2_0_0 : S8x32x9x64x64.Slices ![0, 0, 2, 0, 0] S8x32x1x64x64
  slices_S8x256x66x66_S8x256x64x64_0_0_1_0 : S8x256x66x66.Slices ![0, 0, 1, 0] S8x256x64x64
  slices_S8x32x9x64x64_S8x32x1x64x64_0_0_3_0_0 : S8x32x9x64x64.Slices ![0, 0, 3, 0, 0] S8x32x1x64x64
  slices_S8x256x66x66_S8x256x64x64_0_0_1_1 : S8x256x66x66.Slices ![0, 0, 1, 1] S8x256x64x64
  slices_S8x32x9x64x64_S8x32x1x64x64_0_0_4_0_0 : S8x32x9x64x64.Slices ![0, 0, 4, 0, 0] S8x32x1x64x64
  slices_S8x256x66x66_S8x256x64x64_0_0_1_2 : S8x256x66x66.Slices ![0, 0, 1, 2] S8x256x64x64
  slices_S8x32x9x64x64_S8x32x1x64x64_0_0_5_0_0 : S8x32x9x64x64.Slices ![0, 0, 5, 0, 0] S8x32x1x64x64
  slices_S8x256x66x66_S8x256x64x64_0_0_2_0 : S8x256x66x66.Slices ![0, 0, 2, 0] S8x256x64x64
  slices_S8x32x9x64x64_S8x32x1x64x64_0_0_6_0_0 : S8x32x9x64x64.Slices ![0, 0, 6, 0, 0] S8x32x1x64x64
  slices_S8x256x66x66_S8x256x64x64_0_0_2_1 : S8x256x66x66.Slices ![0, 0, 2, 1] S8x256x64x64
  slices_S8x32x9x64x64_S8x32x1x64x64_0_0_7_0_0 : S8x32x9x64x64.Slices ![0, 0, 7, 0, 0] S8x32x1x64x64
  slices_S8x256x66x66_S8x256x64x64_0_0_2_2 : S8x256x66x66.Slices ![0, 0, 2, 2] S8x256x64x64
  slices_S8x32x9x64x64_S8x32x1x64x64_0_0_8_0_0 : S8x32x9x64x64.Slices ![0, 0, 8, 0, 0] S8x32x1x64x64
  shapeCasts_S8x32x8x64x64_S8x256x64x64 : S8x32x8x64x64.ShapeCasts S8x256x64x64

variable [Facts₀]

class Facts : Prop extends Facts₀ where

variable [Facts]
-- ==== Proof.Conv.lean ====
/-
  The per-pixel dynamic 3×3 convolution both programs compute, as ONE function of the two argument arrays.

  For an image `X : [8, 256, 64, 64]` and per-pixel weights `W : [8, 32, 9, 64, 64]` (32 groups of 8 channels, the
  9 taps of a 3×3 window in row-major order) the result at `(b, c, h, w)` is

      ((((0 + P(h+0, w+0) · W(b, c/8, 0, h, w)) + P(h+0, w+1) · W(b, c/8, 1, h, w)) + …) + P(h+2, w+2) · W(b, c/8, 8, h, w))

  where `P(r, s)` reads channel `c` of image `b` framed by one ring of the padding value `z`: `X(b, c, r-1, s-1)` for
  `1 ≤ r, s ≤ 64` and `z` on the ring. The nine products are added to the zero word left to right in tap order, which
  is the order both programs add them in, so no law of the arithmetic is needed to join the two sides: they are this
  term, the kernel with `z` the zero word it concatenates, the reference with `z` the integer `0` converted.
-/
import Idealize.ShloMosaic.PureOps.Ideal
import Idealize.ShloMosaic.PureOps.Ideal.Laws
import Idealize.ShloMosaic.Lib.ValueIdx

noncomputable section

namespace Cert.DynConv

open Idealize.ShloMosaic Idealize.ShloMosaic.ValueIdx

variable {F : FTy → Type} [FloatOps F]

/-- The image's shape and the per-pixel weights' shape. -/
abbrev SImg : Shape := ⟨4, ![8, 256, 64, 64]⟩
abbrev SWgt : Shape := ⟨5, ![8, 32, 9, 64, 64]⟩

/-- Channel `c` of image `b` with one ring of `z` around it, read at the framed coordinates `(r, s)`: the image at
    `(r - 1, s - 1)` inside the frame, `z` on it (and anywhere further out). -/
def padded (z : F .f32) (X : SImg.Idx → F .f32) (b : Fin 8) (c : Fin 256) (r s : Nat) : F .f32 :=
  if h : (1 ≤ r ∧ r ≤ 64) ∧ (1 ≤ s ∧ s ≤ 64) then X (ix4 b c ⟨r - 1, by omega⟩ ⟨s - 1, by omega⟩) else z

/-- Tap `k` (window row `i`, window column `j`) of the pixel `(b, c, h, w)`: the framed image one window step from the
    pixel, times the pixel's own weight for that tap — the weight of the channel's GROUP `c / 8`. -/
def tap (z : F .f32) (X : SImg.Idx → F .f32) (W : SWgt.Idx → F .f32) (b : Fin 8) (c : Fin 256) (h w : Fin 64)
    (i j : Nat) (k : Fin 9) : F .f32 :=
  FloatOps.mulf (padded z X b c (h.val + i) (w.val + j)) (W (ix5 b ⟨c.val / 8, by omega⟩ k h w))

/-- The nine taps added to the zero word, left to right in tap order. -/
def convAt (z : F .f32) (X : SImg.Idx → F .f32) (W : SWgt.Idx → F .f32) (b : Fin 8) (c : Fin 256) (h w : Fin 64) : F .f32 :=
  FloatOps.addf (FloatOps.addf (FloatOps.addf (FloatOps.addf (FloatOps.addf (FloatOps.addf (FloatOps.addf (FloatOps.addf (FloatOps.addf (FloatOps.ofBits .f32 0x00000000#32)
      (tap z X W b c h w 0 0 0))
      (tap z X W b c h w 0 1 1))
      (tap z X W b c h w 0 2 2))
      (tap z X W b c h w 1 0 3))
      (tap z X W b c h w 1 1 4))
      (tap z X W b c h w 1 2 5))
      (tap z X W b c h w 2 0 6))
      (tap z X W b c h w 2 1 7))
      (tap z X W b c h w 2 2 8)

/-- The whole result array. -/
def conv (z : F .f32) (X : SImg.Idx → F .f32) (W : SWgt.Idx → F .f32) : SImg.Idx → F .f32 :=
  fun i => convAt z X W (i 0) (i 1) (i 2) (i 3)

/-- Over the extended reals the two padding values are one: the zero word denotes `0`, and so does the integer `0`
    converted to a float. -/
theorem pad_values_eq : (FloatOps.sitofp (F := Ideal) .f32 (0#32 : BitVec 32)) = FloatOps.ofBits (F := Ideal) .f32 0x00000000#32 := by
  show (((0#32 : BitVec 32).toInt : ℝ) : EReal) = Ideal.ofBits .f32 0x00000000#32
  rw [Ideal.ofBits_zero_f32]
  simp

end Cert.DynConv

end
-- ==== Proof.Framed.lean ====
/-
  The kernel's framed block. The body reshapes its image block `[1, 128, 64, 64]` to 16 groups of 8 channels and puts a ring
  of the zero word around every `64 × 64` channel by two concatenations (one zero row above and below, then one zero column
  left and right). Read at `(g, cg, r, s)` the result is the block at `(0, 8 g + cg, r - 1, s - 1)` when `1 ≤ r, s ≤ 64`, and
  the zero word on the ring.
-/
import proofs.«163326_j54769422958614_1_alg».proof.Proof.Gen.KernelIdeal.Skeleton
import Idealize.ShloMosaic.Lib.Pipeline.Value
import Idealize.ShloMosaic.Lib.ValueIdx

noncomputable section

namespace Cert.KernelIdeal.Framed

open Cert.KernelIdeal Cert.KernelIdeal.Gen Idealize.ShloMosaic Idealize.ShloMosaic.ValueIdx

variable {α : Type}

/-- One row of `z` above and below: rows `1 … 64` of the result are the operand's rows `0 … 63`, rows `0` and `65` are `z`. -/
theorem rows_apply (x : S16x8x64x64.Idx → α) (z : α)
    (hc : Shape.Concatenates [S16x8x1x64, S16x8x64x64, S16x8x1x64] S16x8x66x64 2)
    (g : Fin 16) (cg : Fin 8) (r : Fin 66) (s : Fin 64) :
    concatenate S16x8x66x64 2 [⟨S16x8x1x64, broadcast S16x8x1x64 z⟩, ⟨S16x8x64x64, x⟩, ⟨S16x8x1x64, broadcast S16x8x1x64 z⟩] hc
        (ix4 g cg r s)
      = if h : 1 ≤ r.val ∧ r.val ≤ 64 then x (ix4 g cg ⟨r.val - 1, by omega⟩ s) else z := by
  have hr : r.val < 66 := r.isLt
  by_cases h0 : r.val = 0
  · rw [dif_neg (by omega)]
    refine (concatenate_apply_piece (2 : Fin S16x8x66x64.rank)
      [⟨S16x8x1x64, broadcast S16x8x1x64 z⟩, ⟨S16x8x64x64, x⟩, ⟨S16x8x1x64, broadcast S16x8x1x64 z⟩] hc (ix4 g cg r s) 0 (by show 0 < 3; omega) S16x8x1x64 (broadcast S16x8x1x64 z) rfl rfl 0 rfl
      (ix4 g cg (0 : Fin 1) s) (fun b hb => ?_) (by show 0 + 0 = r.val; omega)).trans rfl
    match b, hb with
    | ⟨0, _⟩, _ => rfl
    | ⟨1, _⟩, _ => rfl
    | ⟨2, _⟩, hb => exact absurd rfl hb
    | ⟨3, _⟩, _ => rfl
  by_cases h65 : r.val = 65
  · rw [dif_neg (by omega)]
    refine (concatenate_apply_piece (2 : Fin S16x8x66x64.rank)
      [⟨S16x8x1x64, broadcast S16x8x1x64 z⟩, ⟨S16x8x64x64, x⟩, ⟨S16x8x1x64, broadcast S16x8x1x64 z⟩] hc (ix4 g cg r s) 2 (by show 2 < 3; omega) S16x8x1x64 (broadcast S16x8x1x64 z) rfl rfl 65 rfl
      (ix4 g cg (0 : Fin 1) s) (fun b hb => ?_) (by show 65 + 0 = r.val; omega)).trans rfl
    match b, hb with
    | ⟨0, _⟩, _ => rfl
    | ⟨1, _⟩, _ => rfl
    | ⟨2, _⟩, hb => exact absurd rfl hb
    | ⟨3, _⟩, _ => rfl
  · rw [dif_pos (by omega)]
    refine (concatenate_apply_piece (2 : Fin S16x8x66x64.rank)
      [⟨S16x8x1x64, broadcast S16x8x1x64 z⟩, ⟨S16x8x64x64, x⟩, ⟨S16x8x1x64, broadcast S16x8x1x64 z⟩] hc (ix4 g cg r s) 1 (by show 1 < 3; omega) S16x8x64x64 x rfl rfl 1 rfl
      (ix4 g cg (⟨r.val - 1, by omega⟩ : Fin 64) s) (fun b hb => ?_) (by show 1 + (r.val - 1) = r.val; omega)).trans rfl
    match b, hb with
    | ⟨0, _⟩, _ => rfl
    | ⟨1, _⟩, _ => rfl
    | ⟨2, _⟩, hb => exact absurd rfl hb
    | ⟨3, _⟩, _ => rfl

/-- One column of `z` left and right: columns `1 … 64` of the result are the operand's columns `0 … 63`, columns `0` and `65`
    are `z`. -/
theorem cols_apply (x : S16x8x66x64.Idx → α) (z : α)
    (hc : Shape.Concatenates [S16x8x66x1, S16x8x66x64, S16x8x66x1] S16x8x66x66 3)
    (g : Fin 16) (cg : Fin 8) (r : Fin 66) (s : Fin 66) :
    concatenate S16x8x66x66 3 [⟨S16x8x66x1, broadcast S16x8x66x1 z⟩, ⟨S16x8x66x64, x⟩, ⟨S16x8x66x1, broadcast S16x8x66x1 z⟩] hc
        (ix4 g cg r s)
      = if h : 1 ≤ s.val ∧ s.val ≤ 64 then x (ix4 g cg r ⟨s.val - 1, by omega⟩) else z := by
  have hs : s.val < 66 := s.isLt
  by_cases h0 : s.val = 0
  · rw [dif_neg (by omega)]
    refine (concatenate_apply_piece (3 : Fin S16x8x66x66.rank)
      [⟨S16x8x66x1, broadcast S16x8x66x1 z⟩, ⟨S16x8x66x64, x⟩, ⟨S16x8x66x1, broadcast S16x8x66x1 z⟩] hc (ix4 g cg r s) 0 (by show 0 < 3; omega) S16x8x66x1 (broadcast S16x8x66x1 z) rfl rfl 0 rfl
      (ix4 g cg r (0 : Fin 1)) (fun b hb => ?_) (by show 0 + 0 = s.val; omega)).trans rfl
    match b, hb with
    | ⟨0, _⟩, _ => rfl
    | ⟨1, _⟩, _ => rfl
    | ⟨2, _⟩, _ => rfl
    | ⟨3, _⟩, hb => exact absurd rfl hb
  by_cases h65 : s.val = 65
  · rw [dif_neg (by omega)]
    refine (concatenate_apply_piece (3 : Fin S16x8x66x66.rank)
      [⟨S16x8x66x1, broadcast S16x8x66x1 z⟩, ⟨S16x8x66x64, x⟩, ⟨S16x8x66x1, broadcast S16x8x66x1 z⟩] hc (ix4 g cg r s) 2 (by show 2 < 3; omega) S16x8x66x1 (broadcast S16x8x66x1 z) rfl rfl 65 rfl
      (ix4 g cg r (0 : Fin 1)) (fun b hb => ?_) (by show 65 + 0 = s.val; omega)).trans rfl
    match b, hb with
    | ⟨0, _⟩, _ => rfl
    | ⟨1, _⟩, _ => rfl
    | ⟨2, _⟩, _ => rfl
    | ⟨3, _⟩, hb => exact absurd rfl hb
  · rw [dif_pos (by omega)]
    refine (concatenate_apply_piece (3 : Fin S16x8x66x66.rank)
      [⟨S16x8x66x1, broadcast S16x8x66x1 z⟩, ⟨S16x8x66x64, x⟩, ⟨S16x8x66x1, broadcast S16x8x66x1 z⟩] hc (ix4 g cg r s) 1 (by show 1 < 3; omega) S16x8x66x64 x rfl rfl 1 rfl
      (ix4 g cg r (⟨s.val - 1, by omega⟩ : Fin 64)) (fun b hb => ?_) (by show 1 + (s.val - 1) = s.val; omega)).trans rfl
    match b, hb with
    | ⟨0, _⟩, _ => rfl
    | ⟨1, _⟩, _ => rfl
    | ⟨2, _⟩, _ => rfl
    | ⟨3, _⟩, hb => exact absurd rfl hb

variable {F : FTy → Type} [FloatOps F]

/-- The framed block at `(g, cg, r, s)`: the image block's channel `8 g + cg` at `(r - 1, s - 1)` inside the ring, the zero
    word on it. -/
theorem framed_apply (P0 : Vec F S1x128x64x64 .f32) (g : Fin 16) (cg : Fin 8) (r s : Fin 66) :
    k0_pay2 P0 (ix4 g cg r s)
      = if h : (1 ≤ r.val ∧ r.val ≤ 64) ∧ (1 ≤ s.val ∧ s.val ≤ 64) then
          P0 (ix4 (0 : Fin 1) (⟨8 * g.val + cg.val, by omega⟩ : Fin 128) (⟨r.val - 1, by omega⟩ : Fin 64) (⟨s.val - 1, by omega⟩ : Fin 64))
        else FloatOps.ofBits .f32 0x00000000#32 := by
  have hg : g.val < 16 := g.isLt
  have hcg : cg.val < 8 := cg.isLt
  unfold k0_pay2
  refine (cols_apply _ _ _ g cg r s).trans ?_
  by_cases hs : 1 ≤ s.val ∧ s.val ≤ 64
  · rw [dif_pos hs]
    refine (rows_apply _ _ _ g cg r _).trans ?_
    by_cases hr : 1 ≤ r.val ∧ r.val ≤ 64
    · rw [dif_pos hr, dif_pos ⟨hr, hs⟩]
      refine (shapeCast_apply _ _ _ (ix3 (⟨8 * g.val + cg.val, by omega⟩ : Fin 128) (⟨r.val - 1, by omega⟩ : Fin 64) (⟨s.val - 1, by omega⟩ : Fin 64))
        (by rw [Shape.rowMajor_val_three, Shape.rowMajor_val_four]
            show ((8 * g.val + cg.val) * 64 + (r.val - 1)) * 64 + (s.val - 1) = ((g.val * 8 + cg.val) * 64 + (r.val - 1)) * 64 + (s.val - 1)
            omega)).trans ?_
      exact shapeCast_apply _ _ _ _
        (by rw [Shape.rowMajor_val_four, Shape.rowMajor_val_three]
            show ((0 * 128 + (8 * g.val + cg.val)) * 64 + (r.val - 1)) * 64 + (s.val - 1) = ((8 * g.val + cg.val) * 64 + (r.val - 1)) * 64 + (s.val - 1)
            omega)
    · rw [dif_neg hr, dif_neg (fun h => hr h.1)]
  · rw [dif_neg hs, dif_neg (fun h => hs h.2)]

end Cert.KernelIdeal.Framed

end
-- ==== Proof.KernelConv.lean ====
/-
  The kernel, block by block, writes the dynamic convolution `conv`.

  Grid point `t = (b, gb)` stages image `b`'s channels `128 gb … 128 gb + 127` (16 groups of 8) and the same 16 groups'
  weights, and stores one value: the nine products of the framed image block, sliced at the tap's offset, with the tap's
  weights broadcast over a group's channels, added to the zero word in tap order. At the block index `(0, cl, h, w)` that is
  the sum of `framed(cl / 8, cl % 8, h + i, w + j) · weights(0, cl / 8, k, h, w)` — the generated reading of the store's
  payload —, the framed block is the image framed by the zero word (`framed_apply`), and channel `cl` of the block is channel
  `128 gb + cl` of the array, whose group is `16 gb + cl / 8`: point `t` writes block `t` of `conv`. The sixteen blocks tile
  the result array, so after the run the array IS `conv` of the two arguments.
-/
import proofs.«163326_j54769422958614_1_alg».proof.Proof.BlockValueGen
import proofs.«163326_j54769422958614_1_alg».proof.Proof.Framed
import proofs.«163326_j54769422958614_1_alg».proof.Proof.Conv

noncomputable section

namespace Cert.KernelIdeal.AsConv

open Cert.KernelIdeal Cert.KernelIdeal.Gen Cert.KernelIdeal.ValueP Cert.KernelIdeal.Framed Cert.DynConv
open Idealize.ShloMosaic Idealize.ShloMosaic.TcCoe Idealize.ShloMosaic.ValueIdx Idealize.SL.Sem
open Idealize.ShloMosaic.Pipeline (Dat)

variable {F : FTy → Type} [FloatOps F]

/-! ## One block, over variables -/

theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- What the body leaves in the output block is the generated index-by-index reading of its one store. -/
theorem block_eq (P0 : Vec F S1x128x64x64 .f32) (P1 : Vec F S1x16x9x64x64 .f32) (y : S1x128x64x64.Idx) :
    out0_2 P0 P1 y = E2 P0 P1 y := by
  unfold out0_2
  rw [View.ld_unit_zero (S := S1x128x64x64) hz4, View.ld_unit_zero (S := S1x16x9x64x64) hz5]
  exact canon2_eq P0 P1 y

/-- An image factor: the framed block at `(cl / 8, cl % 8, h + i, w + j)` is the array's framed channel `128 gb + cl` of
    image `b` at `(h + i, w + j)`, when the block is the array's block `(b, gb)`. -/
theorem img_factor (X : SImg.Idx → F .f32) (P0 : Vec F S1x128x64x64 .f32) (b : Fin 8) (gb : Fin 2)
    (hP0 : ∀ (cl : Fin 128) (r s : Fin 64),
      P0 (ix4 (0 : Fin 1) cl r s) = X (ix4 b (⟨gb.val * 128 + cl.val, by omega⟩ : Fin 256) r s))
    (cl : Fin 128) (h w : Fin 64) (i j : Nat) (hi : i ≤ 2) (hj : j ≤ 2) (q : S16x8x66x66.Idx)
    (hq0 : (q 0).val = cl.val / 8) (hq1 : (q 1).val = cl.val % 8) (hq2 : (q 2).val = h.val + i) (hq3 : (q 3).val = w.val + j) :
    k0_pay2 P0 q
      = padded (FloatOps.ofBits .f32 0x00000000#32) X b (⟨gb.val * 128 + cl.val, by omega⟩ : Fin 256) (h.val + i) (w.val + j) := by
  have hcl : cl.val < 128 := cl.isLt
  have hh : h.val < 64 := h.isLt
  have hw : w.val < 64 := w.isLt
  obtain ⟨g, cg, r, s, rfl⟩ : ∃ (g : Fin 16) (cg : Fin 8) (r s : Fin 66), q = ix4 g cg r s := ⟨q 0, q 1, q 2, q 3, eq_ix4 q⟩
  have hq0 : g.val = cl.val / 8 := hq0
  have hq1 : cg.val = cl.val % 8 := hq1
  have hq2 : r.val = h.val + i := hq2
  have hq3 : s.val = w.val + j := hq3
  rw [framed_apply]
  unfold padded
  by_cases hin : (1 ≤ r.val ∧ r.val ≤ 64) ∧ (1 ≤ s.val ∧ s.val ≤ 64)
  · rw [dif_pos hin, dif_pos (by omega), hP0]
    congr 1
    funext a; apply Fin.ext
    match a with
    | ⟨0, _⟩ => rfl
    | ⟨1, _⟩ => show gb.val * 128 + (8 * g.val + cg.val) = gb.val * 128 + cl.val; omega
    | ⟨2, _⟩ => show r.val - 1 = h.val + i - 1; omega
    | ⟨3, _⟩ => show s.val - 1 = w.val + j - 1; omega
  · rw [dif_neg hin, dif_neg (by omega)]

/-- A weight factor: the weights block at `(0, cl / 8, k, h, w)` is the array's weight of image `b`, group `(128 gb + cl) / 8`. -/
theorem wgt_factor (W : SWgt.Idx → F .f32) (P1 : Vec F S1x16x9x64x64 .f32) (b : Fin 8) (gb : Fin 2)
    (hP1 : ∀ (g : Fin 16) (k : Fin 9) (h w : Fin 64),
      P1 (ix5 (0 : Fin 1) g k h w) = W (ix5 b (⟨gb.val * 16 + g.val, by omega⟩ : Fin 32) k h w))
    (cl : Fin 128) (h w : Fin 64) (k : Fin 9) (q : S1x16x9x64x64.Idx)
    (hq0 : (q 0).val = 0) (hq1 : (q 1).val = cl.val / 8) (hq2 : (q 2).val = k.val) (hq3 : (q 3).val = h.val) (hq4 : (q 4).val = w.val) :
    P1 q = W (ix5 b (⟨(gb.val * 128 + cl.val) / 8, by omega⟩ : Fin 32) k h w) := by
  have hcl : cl.val < 128 := cl.isLt
  obtain ⟨q0, g, k', h', w', rfl⟩ : ∃ (q0 : Fin 1) (g : Fin 16) (k' : Fin 9) (h' w' : Fin 64), q = ix5 q0 g k' h' w' :=
    ⟨q 0, q 1, q 2, q 3, q 4, eq_ix5 q⟩
  have e0 : q0 = 0 := Subsingleton.elim _ _
  have e1 : g.val = cl.val / 8 := hq1
  have e2 : k' = k := Fin.ext hq2
  have e3 : h' = h := Fin.ext hq3
  have e4 : w' = w := Fin.ext hq4
  subst e0 e2 e3 e4
  rw [hP1]
  congr 1
  funext a; apply Fin.ext
  match a with
  | ⟨0, _⟩ => rfl
  | ⟨1, _⟩ => show gb.val * 16 + g.val = (gb.val * 128 + cl.val) / 8; omega
  | ⟨2, _⟩ => rfl
  | ⟨3, _⟩ => rfl
  | ⟨4, _⟩ => rfl

/-- THE BLOCK is the convolution's block: for an image block `P0` and a weights block `P1` that are the arrays' blocks
    `(b, gb)`, the stored value at `(0, cl, h, w)` is `convAt` at the array index `(b, 128 gb + cl, h, w)`. -/
theorem block_conv (X : SImg.Idx → F .f32) (W : SWgt.Idx → F .f32) (P0 : Vec F S1x128x64x64 .f32) (P1 : Vec F S1x16x9x64x64 .f32)
    (b : Fin 8) (gb : Fin 2)
    (hP0 : ∀ (cl : Fin 128) (r s : Fin 64),
      P0 (ix4 (0 : Fin 1) cl r s) = X (ix4 b (⟨gb.val * 128 + cl.val, by omega⟩ : Fin 256) r s))
    (hP1 : ∀ (g : Fin 16) (k : Fin 9) (h w : Fin 64),
      P1 (ix5 (0 : Fin 1) g k h w) = W (ix5 b (⟨gb.val * 16 + g.val, by omega⟩ : Fin 32) k h w))
    (cl : Fin 128) (h w : Fin 64) :
    E2 P0 P1 (ix4 (0 : Fin 1) cl h w)
      = convAt (FloatOps.ofBits .f32 0x00000000#32) X W b (⟨gb.val * 128 + cl.val, by omega⟩ : Fin 256) h w := by
  unfold convAt tap E2
  rw [img_factor X P0 b gb hP0 cl h w 0 0 (by omega) (by omega) (ix2_0 (ix4 (0 : Fin 1) cl h w)) rfl rfl rfl rfl,
    wgt_factor W P1 b gb hP1 cl h w (0 : Fin 9) (ix2_1 (ix4 (0 : Fin 1) cl h w)) rfl rfl rfl rfl rfl,
    img_factor X P0 b gb hP0 cl h w 0 1 (by omega) (by omega) (ix2_2 (ix4 (0 : Fin 1) cl h w)) rfl rfl rfl rfl,
    wgt_factor W P1 b gb hP1 cl h w (1 : Fin 9) (ix2_3 (ix4 (0 : Fin 1) cl h w)) rfl rfl rfl rfl rfl,
    img_factor X P0 b gb hP0 cl h w 0 2 (by omega) (by omega) (ix2_4 (ix4 (0 : Fin 1) cl h w)) rfl rfl rfl rfl,
    wgt_factor W P1 b gb hP1 cl h w (2 : Fin 9) (ix2_5 (ix4 (0 : Fin 1) cl h w)) rfl rfl rfl rfl rfl,
    img_factor X P0 b gb hP0 cl h w 1 0 (by omega) (by omega) (ix2_6 (ix4 (0 : Fin 1) cl h w)) rfl rfl rfl rfl,
    wgt_factor W P1 b gb hP1 cl h w (3 : Fin 9) (ix2_7 (ix4 (0 : Fin 1) cl h w)) rfl rfl rfl rfl rfl,
    img_factor X P0 b gb hP0 cl h w 1 1 (by omega) (by omega) (ix2_8 (ix4 (0 : Fin 1) cl h w)) rfl rfl rfl rfl,
    wgt_factor W P1 b gb hP1 cl h w (4 : Fin 9) (ix2_9 (ix4 (0 : Fin 1) cl h w)) rfl rfl rfl rfl rfl,
    img_factor X P0 b gb hP0 cl h w 1 2 (by omega) (by omega) (ix2_10 (ix4 (0 : Fin 1) cl h w)) rfl rfl rfl rfl,
    wgt_factor W P1 b gb hP1 cl h w (5 : Fin 9) (ix2_11 (ix4 (0 : Fin 1) cl h w)) rfl rfl rfl rfl rfl,
    img_factor X P0 b gb hP0 cl h w 2 0 (by omega) (by omega) (ix2_12 (ix4 (0 : Fin 1) cl h w)) rfl rfl rfl rfl,
    wgt_factor W P1 b gb hP1 cl h w (6 : Fin 9) (ix2_13 (ix4 (0 : Fin 1) cl h w)) rfl rfl rfl rfl rfl,
    img_factor X P0 b gb hP0 cl h w 2 1 (by omega) (by omega) (ix2_14 (ix4 (0 : Fin 1) cl h w)) rfl rfl rfl rfl,
    wgt_factor W P1 b gb hP1 cl h w (7 : Fin 9) (ix2_15 (ix4 (0 : Fin 1) cl h w)) rfl rfl rfl rfl rfl,
    img_factor X P0 b gb hP0 cl h w 2 2 (by omega) (by omega) (ix2_16 (ix4 (0 : Fin 1) cl h w)) rfl rfl rfl rfl,
    wgt_factor W P1 b gb hP1 cl h w (8 : Fin 9) (ix2_17 (ix4 (0 : Fin 1) cl h w)) rfl rfl rfl rfl rfl]

/-! ## From blocks to the array -/

variable (m : (ℓ : Loc nD τ sig) → Buf (Elt F) ℓ) (ρ : Dev nD → PrngReg)

/-- The three index maps, decided over the sixteen grid points: the image's and the weights' block indices are the
    output's `(b, gb)` on the two leading axes and `0` on the others, and `b < 8`, `gb < 2`. -/
theorem idx_facts : ∀ t : Fin cfg0.N,
    (win0_0.index t (0 : Fin 4) = win0_2.index t (0 : Fin 4) ∧ win0_0.index t (1 : Fin 4) = win0_2.index t (1 : Fin 4)
      ∧ win0_0.index t (2 : Fin 4) = 0 ∧ win0_0.index t (3 : Fin 4) = 0)
    ∧ (win0_1.index t (0 : Fin 5) = win0_2.index t (0 : Fin 4) ∧ win0_1.index t (1 : Fin 5) = win0_2.index t (1 : Fin 4)
      ∧ win0_1.index t (2 : Fin 5) = 0 ∧ win0_1.index t (3 : Fin 5) = 0 ∧ win0_1.index t (4 : Fin 5) = 0)
    ∧ (win0_2.index t (0 : Fin 4) < 8 ∧ win0_2.index t (1 : Fin 4) < 2
      ∧ win0_2.index t (2 : Fin 4) = 0 ∧ win0_2.index t (3 : Fin 4) = 0) :=
  (by decide +kernel : ∀ t : Fin grid0.N, _)

/-- Every block `(b, gb)` of the result array is some grid point's. -/
theorem idx_onto : ∀ (q0 : Fin 8) (q1 : Fin 2), ∃ t : Fin cfg0.N, win0_2.index t = ![q0.val, q1.val, 0, 0] :=
  (by decide +kernel : ∀ (q0 : Fin 8) (q1 : Fin 2), ∃ t : Fin grid0.N, win0_2.index t = ![q0.val, q1.val, 0, 0])

/-- WHAT POINT `t` WRITES BACK is block `t` of the convolution of the two argument arrays. -/
theorem flushed_eq (c : Dev nD) (t : Fin cfg0.N) :
    (dats m 0 c).flushed 2 t
      = ((cfg0.win 2).blk t).view.read (Elt F) (conv (FloatOps.ofBits .f32 0x00000000#32) (V m c main_arg0) (V m c main_arg1)) := by
  rw [flushed2]
  obtain ⟨⟨a0, a1, a2, a3⟩, ⟨b0, b1, b2, b3, b4⟩, ⟨c0, c1, c2, c3⟩⟩ := idx_facts t
  funext y
  show out0_2 (iblk m c 0 t) (iblk m c 1 t) y
    = conv (FloatOps.ofBits .f32 0x00000000#32) (V m c main_arg0) (V m c main_arg1) (((cfg0.win 2).blk t).view.emb y)
  refine (block_eq (iblk m c 0 t) (iblk m c 1 t) y).trans ?_
  obtain ⟨y0, cl, h, w, rfl⟩ : ∃ (y0 : Fin 1) (cl : Fin 128) (h w : Fin 64), y = ix4 y0 cl h w :=
    ⟨y 0, y 1, y 2, y 3, eq_ix4 y⟩
  have e0 : y0 = 0 := Subsingleton.elim _ _
  subst e0
  have hcl : cl.val < 128 := cl.isLt
  refine (block_conv (V m c main_arg0) (V m c main_arg1) (iblk m c 0 t) (iblk m c 1 t)
    (⟨win0_2.index t (0 : Fin 4), c0⟩ : Fin 8) (⟨win0_2.index t (1 : Fin 4), c1⟩ : Fin 2) ?_ ?_ cl h w).trans ?_
  · intro cl r s
    show V m c main_arg0 (((cfg0.win 0).blk t).view.emb (ix4 (0 : Fin 1) cl r s)) = _
    congr 1
    funext a; apply Fin.ext
    match a with
    | ⟨0, _⟩ => show win0_0.index t (0 : Fin 4) * 1 + 1 * 0 = win0_2.index t (0 : Fin 4); omega
    | ⟨1, _⟩ => show win0_0.index t (1 : Fin 4) * 128 + 1 * cl.val = win0_2.index t (1 : Fin 4) * 128 + cl.val; omega
    | ⟨2, _⟩ => show win0_0.index t (2 : Fin 4) * 64 + 1 * r.val = r.val; omega
    | ⟨3, _⟩ => show win0_0.index t (3 : Fin 4) * 64 + 1 * s.val = s.val; omega
  · intro g k h w
    show V m c main_arg1 (((cfg0.win 1).blk t).view.emb (ix5 (0 : Fin 1) g k h w)) = _
    congr 1
    funext a; apply Fin.ext
    match a with
    | ⟨0, _⟩ => show win0_1.index t (0 : Fin 5) * 1 + 1 * 0 = win0_2.index t (0 : Fin 4); omega
    | ⟨1, _⟩ => show win0_1.index t (1 : Fin 5) * 16 + 1 * g.val = win0_2.index t (1 : Fin 4) * 16 + g.val; omega
    | ⟨2, _⟩ => show win0_1.index t (2 : Fin 5) * 9 + 1 * k.val = k.val; omega
    | ⟨3, _⟩ => show win0_1.index t (3 : Fin 5) * 64 + 1 * h.val = h.val; omega
    | ⟨4, _⟩ => show win0_1.index t (4 : Fin 5) * 64 + 1 * w.val = w.val; omega
  · have e : ((cfg0.win 2).blk t).view.emb (ix4 (0 : Fin 1) cl h w)
        = ix4 (⟨win0_2.index t (0 : Fin 4), c0⟩ : Fin 8) (⟨win0_2.index t (1 : Fin 4) * 128 + cl.val, by omega⟩ : Fin 256) h w := by
      funext a; apply Fin.ext
      match a with
      | ⟨0, _⟩ => show win0_2.index t (0 : Fin 4) * 1 + 1 * 0 = win0_2.index t (0 : Fin 4); omega
      | ⟨1, _⟩ => show win0_2.index t (1 : Fin 4) * 128 + 1 * cl.val = win0_2.index t (1 : Fin 4) * 128 + cl.val; omega
      | ⟨2, _⟩ => show win0_2.index t (2 : Fin 4) * 64 + 1 * h.val = h.val; omega
      | ⟨3, _⟩ => show win0_2.index t (3 : Fin 4) * 64 + 1 * w.val = w.val; omega
    rw [e]
    rfl

/-- An index of the result array is in point `t`'s block iff each coordinate is in the block's range on its axis. -/
theorem mem_blk (t : Fin cfg0.N) (i : S8x256x64x64.Idx) :
    i ∈ ((cfg0.win 2).blk t).view.set ↔ ∀ a : Fin 4, win0_2.index t a * S1x128x64x64.size a ≤ (i a).val
      ∧ (i a).val < win0_2.index t a * S1x128x64x64.size a + S1x128x64x64.size a := by
  show i ∈ ((View.whole main_v0).slice (win0_2.rect t)).set ↔ _
  rw [View.set_slice_whole, Rect.mem_set_unit]
  exact Iff.rfl

/-- The sixteen blocks tile the result array: index `(b, c, h, w)` is in the block of the point with `(b, c / 128)`. -/
theorem cover (i : S8x256x64x64.Idx) :
    ∃ t : Fin cfg0.N, (cfg0.win 2).flush t = true ∧ i ∈ ((cfg0.win 2).blk t).view.set := by
  have hi0 : (i 0).val < 8 := (i 0).isLt
  have hi1 : (i 1).val < 256 := (i 1).isLt
  have hi2 : (i 2).val < 64 := (i 2).isLt
  have hi3 : (i 3).val < 64 := (i 3).isLt
  obtain ⟨t, ht⟩ := idx_onto ⟨(i 0).val, hi0⟩ ⟨(i 1).val / 128, by omega⟩
  have q0 : win0_2.index t (0 : Fin 4) = (i 0).val := congrFun ht 0
  have q1 : win0_2.index t (1 : Fin 4) = (i 1).val / 128 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 128 ≤ (i 1).val ∧ (i 1).val < win0_2.index t (1 : Fin 4) * 128 + 128; omega
  | ⟨2, _⟩ => show win0_2.index t (2 : Fin 4) * 64 ≤ (i 2).val ∧ (i 2).val < win0_2.index t (2 : Fin 4) * 64 + 64; omega
  | ⟨3, _⟩ => show win0_2.index t (3 : Fin 4) * 64 ≤ (i 3).val ∧ (i 3).val < win0_2.index t (3 : Fin 4) * 64 + 64; omega

/-- THE RESULT ARRAY after the run is the convolution of the two arguments, framed by the zero word. -/
theorem final (c : Dev nD) :
    (dats m 0 c).arrAt 2 cfg0.N
      = conv (FloatOps.ofBits .f32 0x00000000#32) (m ((c : Thread nD τ).loc main_arg0)) (m ((c : Thread nD τ).loc main_arg1)) :=
  (dats m 0 c).arrAt_eq_of_cover 2 _ (fun t _ => flushed_eq m c t) cover

/-- The kernel's run: it ends with the result at the convolution and the arguments as launched. -/
theorem run : θ_run defs (onTc (τ := τ) (main (F := F))) ⟨m, fun _ => 0, ρ⟩ fun r => ∀ c : Dev nD,
      r.2.mem ((c : Thread nD τ).loc main_v0)
        = conv (FloatOps.ofBits .f32 0x00000000#32) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.AsConv

end
-- ==== Proof.RefConv.lean ====
/-
  The reference, stage by stage, is the dynamic convolution `conv`.

  The reference pads the image once (`stablehlo.pad`, one ring of the integer `0` converted to a float), and for each of the
  nine taps slices the padded image at the tap's offset, splits the channel axis into 32 groups of 8, multiplies by the
  tap's weights broadcast over a group's channels, and adds the product to the running sum, which starts at the zero word;
  the last stage merges the group axes again. Read at an index through the generated stage lemmas, every tap's image
  factor is the framed image one window step away and every weight factor the pixel's own weight of the channel's group:
  the nested sum is `convAt` term by term.
-/
import proofs.«163326_j54769422958614_1_alg».proof.Proof.Gen.ReferenceIdeal.Read
import proofs.«163326_j54769422958614_1_alg».proof.Proof.Conv
import Idealize.ShloMosaic.Lib.KernelVsHost

noncomputable section

namespace Cert.ReferenceIdeal.AsConv

open Cert.ReferenceIdeal Cert.ReferenceIdeal.Gen Cert.ReferenceIdeal.Read Cert.DynConv
open Idealize.ShloMosaic Idealize.ShloMosaic.TcCoe Idealize.ShloMosaic.ValueIdx

variable {F : FTy → Type} [FloatOps F]

/-- The reference's padded image at `(b, c, r, s)` is the image framed by the converted integer `0`. -/
theorem ref_padded (x0 : SImg.Idx → F .f32) (b : Fin 8) (c : Fin 256) (r s : Fin 66) :
    val_main_v0 (F := F) x0 (ix4 b c r s) = padded (FloatOps.sitofp .f32 (0#32 : BitVec 32)) x0 b c r.val s.val := by
  have hr : r.val < 66 := r.isLt
  have hs : s.val < 66 := s.isLt
  unfold val_main_v0 padded
  by_cases hin : (1 ≤ r.val ∧ r.val ≤ 64) ∧ (1 ≤ s.val ∧ s.val ≤ 64)
  · rw [dif_pos hin]
    exact pad_apply_of_inside _ _ _ _ _ _ _ (ix4 b c r s) (ix4 b c (⟨r.val - 1, by omega⟩ : Fin 64) (⟨s.val - 1, by omega⟩ : Fin 64))
      (fun a => match a with
        | ⟨0, _⟩ => by show b.val = 0 + b.val * (0 + 1); omega
        | ⟨1, _⟩ => by show c.val = 0 + c.val * (0 + 1); omega
        | ⟨2, _⟩ => by show r.val = 1 + (r.val - 1) * (0 + 1); omega
        | ⟨3, _⟩ => by show s.val = 1 + (s.val - 1) * (0 + 1); omega)
  · rw [dif_neg hin]
    by_cases hr' : 1 ≤ r.val ∧ r.val ≤ 64
    · exact (pad_apply_of_not_inside _ _ _ _ _ _ _ (ix4 b c r s) (3 : Fin 4)
        (by show ¬(1 ≤ s.val ∧ (s.val - 1) % (0 + 1) = 0 ∧ (s.val - 1) / (0 + 1) < 64); omega)).trans rfl
    · exact (pad_apply_of_not_inside _ _ _ _ _ _ _ (ix4 b c r s) (2 : Fin 4)
        (by show ¬(1 ≤ r.val ∧ (r.val - 1) % (0 + 1) = 0 ∧ (r.val - 1) / (0 + 1) < 64); omega)).trans rfl

/-- Tap 0 (window row 0, column 0), image side: the padded image sliced at offset `(0, 0)` and split into groups,
    read at `(b, c / 8, c % 8, h, w)`, is the framed image at `(h + 0, w + 0)`. -/
theorem img_tap0 (x0 : SImg.Idx → F .f32) (b : Fin 8) (c : Fin 256) (h w : Fin 64) :
    val_main_v3 (F := F) x0 (ix5 b (⟨c.val / 8, by omega⟩ : Fin 32) (⟨c.val % 8, by omega⟩ : Fin 8) h w)
      = padded (FloatOps.sitofp .f32 (0#32 : BitVec 32)) x0 b c (h.val + 0) (w.val + 0) := by
  have hb : b.val < 8 := b.isLt
  have hc : c.val < 256 := c.isLt
  have hh : h.val < 64 := h.isLt
  have hw : w.val < 64 := w.isLt
  rw [val_main_v3_apply, val_main_v2_apply]
  refine Eq.trans (congrArg (val_main_v0 (F := F) x0) ?_) (ref_padded x0 b c ⟨h.val + 0, by omega⟩ ⟨w.val + 0, by omega⟩)
  funext a; apply Fin.ext
  match a with
  | ⟨0, _⟩ => show ((((b.val * 32 + c.val / 8) * 8 + c.val % 8) * 64 + h.val) * 64 + w.val) / 1048576 = b.val; omega
  | ⟨1, _⟩ => show ((((b.val * 32 + c.val / 8) * 8 + c.val % 8) * 64 + h.val) * 64 + w.val) / 4096 % 256 = c.val; omega
  | ⟨2, _⟩ => show ((((b.val * 32 + c.val / 8) * 8 + c.val % 8) * 64 + h.val) * 64 + w.val) / 64 % 64 = h.val + 0; omega
  | ⟨3, _⟩ => show ((((b.val * 32 + c.val / 8) * 8 + c.val % 8) * 64 + h.val) * 64 + w.val) % 64 = w.val + 0; omega

/-- Tap 1 (window row 0, column 1), image side: the padded image sliced at offset `(0, 1)` and split into groups,
    read at `(b, c / 8, c % 8, h, w)`, is the framed image at `(h + 0, w + 1)`. -/
theorem img_tap1 (x0 : SImg.Idx → F .f32) (b : Fin 8) (c : Fin 256) (h w : Fin 64) :
    val_main_v11 (F := F) x0 (ix5 b (⟨c.val / 8, by omega⟩ : Fin 32) (⟨c.val % 8, by omega⟩ : Fin 8) h w)
      = padded (FloatOps.sitofp .f32 (0#32 : BitVec 32)) x0 b c (h.val + 0) (w.val + 1) := by
  have hb : b.val < 8 := b.isLt
  have hc : c.val < 256 := c.isLt
  have hh : h.val < 64 := h.isLt
  have hw : w.val < 64 := w.isLt
  rw [val_main_v11_apply, val_main_v10_apply]
  refine Eq.trans (congrArg (val_main_v0 (F := F) x0) ?_) (ref_padded x0 b c ⟨h.val + 0, by omega⟩ ⟨w.val + 1, by omega⟩)
  funext a; apply Fin.ext
  match a with
  | ⟨0, _⟩ => show ((((b.val * 32 + c.val / 8) * 8 + c.val % 8) * 64 + h.val) * 64 + w.val) / 1048576 = b.val; omega
  | ⟨1, _⟩ => show ((((b.val * 32 + c.val / 8) * 8 + c.val % 8) * 64 + h.val) * 64 + w.val) / 4096 % 256 = c.val; omega
  | ⟨2, _⟩ => show ((((b.val * 32 + c.val / 8) * 8 + c.val % 8) * 64 + h.val) * 64 + w.val) / 64 % 64 = h.val + 0; omega
  | ⟨3, _⟩ => show 1 + ((((b.val * 32 + c.val / 8) * 8 + c.val % 8) * 64 + h.val) * 64 + w.val) % 64 = w.val + 1; omega

/-- Tap 2 (window row 0, column 2), image side: the padded image sliced at offset `(0, 2)` and split into groups,
    read at `(b, c / 8, c % 8, h, w)`, is the framed image at `(h + 0, w + 2)`. -/
theorem img_tap2 (x0 : SImg.Idx → F .f32) (b : Fin 8) (c : Fin 256) (h w : Fin 64) :
    val_main_v19 (F := F) x0 (ix5 b (⟨c.val / 8, by omega⟩ : Fin 32) (⟨c.val % 8, by omega⟩ : Fin 8) h w)
      = padded (FloatOps.sitofp .f32 (0#32 : BitVec 32)) x0 b c (h.val + 0) (w.val + 2) := by
  have hb : b.val < 8 := b.isLt
  have hc : c.val < 256 := c.isLt
  have hh : h.val < 64 := h.isLt
  have hw : w.val < 64 := w.isLt
  rw [val_main_v19_apply, val_main_v18_apply]
  refine Eq.trans (congrArg (val_main_v0 (F := F) x0) ?_) (ref_padded x0 b c ⟨h.val + 0, by omega⟩ ⟨w.val + 2, by omega⟩)
  funext a; apply Fin.ext
  match a with
  | ⟨0, _⟩ => show ((((b.val * 32 + c.val / 8) * 8 + c.val % 8) * 64 + h.val) * 64 + w.val) / 1048576 = b.val; omega
  | ⟨1, _⟩ => show ((((b.val * 32 + c.val / 8) * 8 + c.val % 8) * 64 + h.val) * 64 + w.val) / 4096 % 256 = c.val; omega
  | ⟨2, _⟩ => show ((((b.val * 32 + c.val / 8) * 8 + c.val % 8) * 64 + h.val) * 64 + w.val) / 64 % 64 = h.val + 0; omega
  | ⟨3, _⟩ => show 2 + ((((b.val * 32 + c.val / 8) * 8 + c.val % 8) * 64 + h.val) * 64 + w.val) % 64 = w.val + 2; omega

/-- Tap 3 (window row 1, column 0), image side: the padded image sliced at offset `(1, 0)` and split into groups,
    read at `(b, c / 8, c % 8, h, w)`, is the framed image at `(h + 1, w + 0)`. -/
theorem img_tap3 (x0 : SImg.Idx → F .f32) (b : Fin 8) (c : Fin 256) (h w : Fin 64) :
    val_main_v27 (F := F) x0 (ix5 b (⟨c.val / 8, by omega⟩ : Fin 32) (⟨c.val % 8, by omega⟩ : Fin 8) h w)
      = padded (FloatOps.sitofp .f32 (0#32 : BitVec 32)) x0 b c (h.val + 1) (w.val + 0) := by
  have hb : b.val < 8 := b.isLt
  have hc : c.val < 256 := c.isLt
  have hh : h.val < 64 := h.isLt
  have hw : w.val < 64 := w.isLt
  rw [val_main_v27_apply, val_main_v26_apply]
  refine Eq.trans (congrArg (val_main_v0 (F := F) x0) ?_) (ref_padded x0 b c ⟨h.val + 1, by omega⟩ ⟨w.val + 0, by omega⟩)
  funext a; apply Fin.ext
  match a with
  | ⟨0, _⟩ => show ((((b.val * 32 + c.val / 8) * 8 + c.val % 8) * 64 + h.val) * 64 + w.val) / 1048576 = b.val; omega
  | ⟨1, _⟩ => show ((((b.val * 32 + c.val / 8) * 8 + c.val % 8) * 64 + h.val) * 64 + w.val) / 4096 % 256 = c.val; omega
  | ⟨2, _⟩ => show 1 + ((((b.val * 32 + c.val / 8) * 8 + c.val % 8) * 64 + h.val) * 64 + w.val) / 64 % 64 = h.val + 1; omega
  | ⟨3, _⟩ => show ((((b.val * 32 + c.val / 8) * 8 + c.val % 8) * 64 + h.val) * 64 + w.val) % 64 = w.val + 0; omega

/-- Tap 4 (window row 1, column 1), image side: the padded image sliced at offset `(1, 1)` and split into groups,
    read at `(b, c / 8, c % 8, h, w)`, is the framed image at `(h + 1, w + 1)`. -/
theorem img_tap4 (x0 : SImg.Idx → F .f32) (b : Fin 8) (c : Fin 256) (h w : Fin 64) :
    val_main_v35 (F := F) x0 (ix5 b (⟨c.val / 8, by omega⟩ : Fin 32) (⟨c.val % 8, by omega⟩ : Fin 8) h w)
      = padded (FloatOps.sitofp .f32 (0#32 : BitVec 32)) x0 b c (h.val + 1) (w.val + 1) := by
  have hb : b.val < 8 := b.isLt
  have hc : c.val < 256 := c.isLt
  have hh : h.val < 64 := h.isLt
  have hw : w.val < 64 := w.isLt
  rw [val_main_v35_apply, val_main_v34_apply]
  refine Eq.trans (congrArg (val_main_v0 (F := F) x0) ?_) (ref_padded x0 b c ⟨h.val + 1, by omega⟩ ⟨w.val + 1, by omega⟩)
  funext a; apply Fin.ext
  match a with
  | ⟨0, _⟩ => show ((((b.val * 32 + c.val / 8) * 8 + c.val % 8) * 64 + h.val) * 64 + w.val) / 1048576 = b.val; omega
  | ⟨1, _⟩ => show ((((b.val * 32 + c.val / 8) * 8 + c.val % 8) * 64 + h.val) * 64 + w.val) / 4096 % 256 = c.val; omega
  | ⟨2, _⟩ => show 1 + ((((b.val * 32 + c.val / 8) * 8 + c.val % 8) * 64 + h.val) * 64 + w.val) / 64 % 64 = h.val + 1; omega
  | ⟨3, _⟩ => show 1 + ((((b.val * 32 + c.val / 8) * 8 + c.val % 8) * 64 + h.val) * 64 + w.val) % 64 = w.val + 1; omega

/-- Tap 5 (window row 1, column 2), image side: the padded image sliced at offset `(1, 2)` and split into groups,
    read at `(b, c / 8, c % 8, h, w)`, is the framed image at `(h + 1, w + 2)`. -/
theorem img_tap5 (x0 : SImg.Idx → F .f32) (b : Fin 8) (c : Fin 256) (h w : Fin 64) :
    val_main_v43 (F := F) x0 (ix5 b (⟨c.val / 8, by omega⟩ : Fin 32) (⟨c.val % 8, by omega⟩ : Fin 8) h w)
      = padded (FloatOps.sitofp .f32 (0#32 : BitVec 32)) x0 b c (h.val + 1) (w.val + 2) := by
  have hb : b.val < 8 := b.isLt
  have hc : c.val < 256 := c.isLt
  have hh : h.val < 64 := h.isLt
  have hw : w.val < 64 := w.isLt
  rw [val_main_v43_apply, val_main_v42_apply]
  refine Eq.trans (congrArg (val_main_v0 (F := F) x0) ?_) (ref_padded x0 b c ⟨h.val + 1, by omega⟩ ⟨w.val + 2, by omega⟩)
  funext a; apply Fin.ext
  match a with
  | ⟨0, _⟩ => show ((((b.val * 32 + c.val / 8) * 8 + c.val % 8) * 64 + h.val) * 64 + w.val) / 1048576 = b.val; omega
  | ⟨1, _⟩ => show ((((b.val * 32 + c.val / 8) * 8 + c.val % 8) * 64 + h.val) * 64 + w.val) / 4096 % 256 = c.val; omega
  | ⟨2, _⟩ => show 1 + ((((b.val * 32 + c.val / 8) * 8 + c.val % 8) * 64 + h.val) * 64 + w.val) / 64 % 64 = h.val + 1; omega
  | ⟨3, _⟩ => show 2 + ((((b.val * 32 + c.val / 8) * 8 + c.val % 8) * 64 + h.val) * 64 + w.val) % 64 = w.val + 2; omega

/-- Tap 6 (window row 2, column 0), image side: the padded image sliced at offset `(2, 0)` and split into groups,
    read at `(b, c / 8, c % 8, h, w)`, is the framed image at `(h + 2, w + 0)`. -/
theorem img_tap6 (x0 : SImg.Idx → F .f32) (b : Fin 8) (c : Fin 256) (h w : Fin 64) :
    val_main_v51 (F := F) x0 (ix5 b (⟨c.val / 8, by omega⟩ : Fin 32) (⟨c.val % 8, by omega⟩ : Fin 8) h w)
      = padded (FloatOps.sitofp .f32 (0#32 : BitVec 32)) x0 b c (h.val + 2) (w.val + 0) := by
  have hb : b.val < 8 := b.isLt
  have hc : c.val < 256 := c.isLt
  have hh : h.val < 64 := h.isLt
  have hw : w.val < 64 := w.isLt
  rw [val_main_v51_apply, val_main_v50_apply]
  refine Eq.trans (congrArg (val_main_v0 (F := F) x0) ?_) (ref_padded x0 b c ⟨h.val + 2, by omega⟩ ⟨w.val + 0, by omega⟩)
  funext a; apply Fin.ext
  match a with
  | ⟨0, _⟩ => show ((((b.val * 32 + c.val / 8) * 8 + c.val % 8) * 64 + h.val) * 64 + w.val) / 1048576 = b.val; omega
  | ⟨1, _⟩ => show ((((b.val * 32 + c.val / 8) * 8 + c.val % 8) * 64 + h.val) * 64 + w.val) / 4096 % 256 = c.val; omega
  | ⟨2, _⟩ => show 2 + ((((b.val * 32 + c.val / 8) * 8 + c.val % 8) * 64 + h.val) * 64 + w.val) / 64 % 64 = h.val + 2; omega
  | ⟨3, _⟩ => show ((((b.val * 32 + c.val / 8) * 8 + c.val % 8) * 64 + h.val) * 64 + w.val) % 64 = w.val + 0; omega

/-- Tap 7 (window row 2, column 1), image side: the padded image sliced at offset `(2, 1)` and split into groups,
    read at `(b, c / 8, c % 8, h, w)`, is the framed image at `(h + 2, w + 1)`. -/
theorem img_tap7 (x0 : SImg.Idx → F .f32) (b : Fin 8) (c : Fin 256) (h w : Fin 64) :
    val_main_v59 (F := F) x0 (ix5 b (⟨c.val / 8, by omega⟩ : Fin 32) (⟨c.val % 8, by omega⟩ : Fin 8) h w)
      = padded (FloatOps.sitofp .f32 (0#32 : BitVec 32)) x0 b c (h.val + 2) (w.val + 1) := by
  have hb : b.val < 8 := b.isLt
  have hc : c.val < 256 := c.isLt
  have hh : h.val < 64 := h.isLt
  have hw : w.val < 64 := w.isLt
  rw [val_main_v59_apply, val_main_v58_apply]
  refine Eq.trans (congrArg (val_main_v0 (F := F) x0) ?_) (ref_padded x0 b c ⟨h.val + 2, by omega⟩ ⟨w.val + 1, by omega⟩)
  funext a; apply Fin.ext
  match a with
  | ⟨0, _⟩ => show ((((b.val * 32 + c.val / 8) * 8 + c.val % 8) * 64 + h.val) * 64 + w.val) / 1048576 = b.val; omega
  | ⟨1, _⟩ => show ((((b.val * 32 + c.val / 8) * 8 + c.val % 8) * 64 + h.val) * 64 + w.val) / 4096 % 256 = c.val; omega
  | ⟨2, _⟩ => show 2 + ((((b.val * 32 + c.val / 8) * 8 + c.val % 8) * 64 + h.val) * 64 + w.val) / 64 % 64 = h.val + 2; omega
  | ⟨3, _⟩ => show 1 + ((((b.val * 32 + c.val / 8) * 8 + c.val % 8) * 64 + h.val) * 64 + w.val) % 64 = w.val + 1; omega

/-- Tap 8 (window row 2, column 2), image side: the padded image sliced at offset `(2, 2)` and split into groups,
    read at `(b, c / 8, c % 8, h, w)`, is the framed image at `(h + 2, w + 2)`. -/
theorem img_tap8 (x0 : SImg.Idx → F .f32) (b : Fin 8) (c : Fin 256) (h w : Fin 64) :
    val_main_v67 (F := F) x0 (ix5 b (⟨c.val / 8, by omega⟩ : Fin 32) (⟨c.val % 8, by omega⟩ : Fin 8) h w)
      = padded (FloatOps.sitofp .f32 (0#32 : BitVec 32)) x0 b c (h.val + 2) (w.val + 2) := by
  have hb : b.val < 8 := b.isLt
  have hc : c.val < 256 := c.isLt
  have hh : h.val < 64 := h.isLt
  have hw : w.val < 64 := w.isLt
  rw [val_main_v67_apply, val_main_v66_apply]
  refine Eq.trans (congrArg (val_main_v0 (F := F) x0) ?_) (ref_padded x0 b c ⟨h.val + 2, by omega⟩ ⟨w.val + 2, by omega⟩)
  funext a; apply Fin.ext
  match a with
  | ⟨0, _⟩ => show ((((b.val * 32 + c.val / 8) * 8 + c.val % 8) * 64 + h.val) * 64 + w.val) / 1048576 = b.val; omega
  | ⟨1, _⟩ => show ((((b.val * 32 + c.val / 8) * 8 + c.val % 8) * 64 + h.val) * 64 + w.val) / 4096 % 256 = c.val; omega
  | ⟨2, _⟩ => show 2 + ((((b.val * 32 + c.val / 8) * 8 + c.val % 8) * 64 + h.val) * 64 + w.val) / 64 % 64 = h.val + 2; omega
  | ⟨3, _⟩ => show 2 + ((((b.val * 32 + c.val / 8) * 8 + c.val % 8) * 64 + h.val) * 64 + w.val) % 64 = w.val + 2; omega

/-- Tap 0, weight side: the weights' slice `k = 0`, broadcast over the 8 channels of a group, read at `(b, g, cg, h, w)`,
    is the weight `(b, g, 0, h, w)`. -/
theorem wgt_tap0 (x1 : SWgt.Idx → F .f32) (b : Fin 8) (g : Fin 32) (cg : Fin 8) (h w : Fin 64) :
    val_main_v7 (F := F) x1 (ix5 b g cg h w) = x1 (ix5 b g (0 : Fin 9) h w) := by
  have hb : b.val < 8 := b.isLt
  have hg : g.val < 32 := g.isLt
  have hh : h.val < 64 := h.isLt
  have hw : w.val < 64 := w.isLt
  rw [val_main_v7_apply, val_main_v6_apply, val_main_v5_apply, val_main_v4_apply]
  congr 1
  funext a; apply Fin.ext
  match a with
  | ⟨0, _⟩ => show (((b.val * 32 + g.val) * 64 + h.val) * 64 + w.val) / 131072 = b.val; omega
  | ⟨1, _⟩ => show (((b.val * 32 + g.val) * 64 + h.val) * 64 + w.val) / 4096 % 32 = g.val; omega
  | ⟨2, _⟩ => show 0 = 0; omega
  | ⟨3, _⟩ => show (((b.val * 32 + g.val) * 64 + h.val) * 64 + w.val) / 64 % 64 = h.val; omega
  | ⟨4, _⟩ => show (((b.val * 32 + g.val) * 64 + h.val) * 64 + w.val) % 64 = w.val; omega

/-- Tap 1, weight side: the weights' slice `k = 1`, broadcast over the 8 channels of a group, read at `(b, g, cg, h, w)`,
    is the weight `(b, g, 1, h, w)`. -/
theorem wgt_tap1 (x1 : SWgt.Idx → F .f32) (b : Fin 8) (g : Fin 32) (cg : Fin 8) (h w : Fin 64) :
    val_main_v15 (F := F) x1 (ix5 b g cg h w) = x1 (ix5 b g (1 : Fin 9) h w) := by
  have hb : b.val < 8 := b.isLt
  have hg : g.val < 32 := g.isLt
  have hh : h.val < 64 := h.isLt
  have hw : w.val < 64 := w.isLt
  rw [val_main_v15_apply, val_main_v14_apply, val_main_v13_apply, val_main_v12_apply]
  congr 1
  funext a; apply Fin.ext
  match a with
  | ⟨0, _⟩ => show (((b.val * 32 + g.val) * 64 + h.val) * 64 + w.val) / 131072 = b.val; omega
  | ⟨1, _⟩ => show (((b.val * 32 + g.val) * 64 + h.val) * 64 + w.val) / 4096 % 32 = g.val; omega
  | ⟨2, _⟩ => show 1 + 0 = 1; omega
  | ⟨3, _⟩ => show (((b.val * 32 + g.val) * 64 + h.val) * 64 + w.val) / 64 % 64 = h.val; omega
  | ⟨4, _⟩ => show (((b.val * 32 + g.val) * 64 + h.val) * 64 + w.val) % 64 = w.val; omega

/-- Tap 2, weight side: the weights' slice `k = 2`, broadcast over the 8 channels of a group, read at `(b, g, cg, h, w)`,
    is the weight `(b, g, 2, h, w)`. -/
theorem wgt_tap2 (x1 : SWgt.Idx → F .f32) (b : Fin 8) (g : Fin 32) (cg : Fin 8) (h w : Fin 64) :
    val_main_v23 (F := F) x1 (ix5 b g cg h w) = x1 (ix5 b g (2 : Fin 9) h w) := by
  have hb : b.val < 8 := b.isLt
  have hg : g.val < 32 := g.isLt
  have hh : h.val < 64 := h.isLt
  have hw : w.val < 64 := w.isLt
  rw [val_main_v23_apply, val_main_v22_apply, val_main_v21_apply, val_main_v20_apply]
  congr 1
  funext a; apply Fin.ext
  match a with
  | ⟨0, _⟩ => show (((b.val * 32 + g.val) * 64 + h.val) * 64 + w.val) / 131072 = b.val; omega
  | ⟨1, _⟩ => show (((b.val * 32 + g.val) * 64 + h.val) * 64 + w.val) / 4096 % 32 = g.val; omega
  | ⟨2, _⟩ => show 2 + 0 = 2; omega
  | ⟨3, _⟩ => show (((b.val * 32 + g.val) * 64 + h.val) * 64 + w.val) / 64 % 64 = h.val; omega
  | ⟨4, _⟩ => show (((b.val * 32 + g.val) * 64 + h.val) * 64 + w.val) % 64 = w.val; omega

/-- Tap 3, weight side: the weights' slice `k = 3`, broadcast over the 8 channels of a group, read at `(b, g, cg, h, w)`,
    is the weight `(b, g, 3, h, w)`. -/
theorem wgt_tap3 (x1 : SWgt.Idx → F .f32) (b : Fin 8) (g : Fin 32) (cg : Fin 8) (h w : Fin 64) :
    val_main_v31 (F := F) x1 (ix5 b g cg h w) = x1 (ix5 b g (3 : Fin 9) h w) := by
  have hb : b.val < 8 := b.isLt
  have hg : g.val < 32 := g.isLt
  have hh : h.val < 64 := h.isLt
  have hw : w.val < 64 := w.isLt
  rw [val_main_v31_apply, val_main_v30_apply, val_main_v29_apply, val_main_v28_apply]
  congr 1
  funext a; apply Fin.ext
  match a with
  | ⟨0, _⟩ => show (((b.val * 32 + g.val) * 64 + h.val) * 64 + w.val) / 131072 = b.val; omega
  | ⟨1, _⟩ => show (((b.val * 32 + g.val) * 64 + h.val) * 64 + w.val) / 4096 % 32 = g.val; omega
  | ⟨2, _⟩ => show 3 + 0 = 3; omega
  | ⟨3, _⟩ => show (((b.val * 32 + g.val) * 64 + h.val) * 64 + w.val) / 64 % 64 = h.val; omega
  | ⟨4, _⟩ => show (((b.val * 32 + g.val) * 64 + h.val) * 64 + w.val) % 64 = w.val; omega

/-- Tap 4, weight side: the weights' slice `k = 4`, broadcast over the 8 channels of a group, read at `(b, g, cg, h, w)`,
    is the weight `(b, g, 4, h, w)`. -/
theorem wgt_tap4 (x1 : SWgt.Idx → F .f32) (b : Fin 8) (g : Fin 32) (cg : Fin 8) (h w : Fin 64) :
    val_main_v39 (F := F) x1 (ix5 b g cg h w) = x1 (ix5 b g (4 : Fin 9) h w) := by
  have hb : b.val < 8 := b.isLt
  have hg : g.val < 32 := g.isLt
  have hh : h.val < 64 := h.isLt
  have hw : w.val < 64 := w.isLt
  rw [val_main_v39_apply, val_main_v38_apply, val_main_v37_apply, val_main_v36_apply]
  congr 1
  funext a; apply Fin.ext
  match a with
  | ⟨0, _⟩ => show (((b.val * 32 + g.val) * 64 + h.val) * 64 + w.val) / 131072 = b.val; omega
  | ⟨1, _⟩ => show (((b.val * 32 + g.val) * 64 + h.val) * 64 + w.val) / 4096 % 32 = g.val; omega
  | ⟨2, _⟩ => show 4 + 0 = 4; omega
  | ⟨3, _⟩ => show (((b.val * 32 + g.val) * 64 + h.val) * 64 + w.val) / 64 % 64 = h.val; omega
  | ⟨4, _⟩ => show (((b.val * 32 + g.val) * 64 + h.val) * 64 + w.val) % 64 = w.val; omega

/-- Tap 5, weight side: the weights' slice `k = 5`, broadcast over the 8 channels of a group, read at `(b, g, cg, h, w)`,
    is the weight `(b, g, 5, h, w)`. -/
theorem wgt_tap5 (x1 : SWgt.Idx → F .f32) (b : Fin 8) (g : Fin 32) (cg : Fin 8) (h w : Fin 64) :
    val_main_v47 (F := F) x1 (ix5 b g cg h w) = x1 (ix5 b g (5 : Fin 9) h w) := by
  have hb : b.val < 8 := b.isLt
  have hg : g.val < 32 := g.isLt
  have hh : h.val < 64 := h.isLt
  have hw : w.val < 64 := w.isLt
  rw [val_main_v47_apply, val_main_v46_apply, val_main_v45_apply, val_main_v44_apply]
  congr 1
  funext a; apply Fin.ext
  match a with
  | ⟨0, _⟩ => show (((b.val * 32 + g.val) * 64 + h.val) * 64 + w.val) / 131072 = b.val; omega
  | ⟨1, _⟩ => show (((b.val * 32 + g.val) * 64 + h.val) * 64 + w.val) / 4096 % 32 = g.val; omega
  | ⟨2, _⟩ => show 5 + 0 = 5; omega
  | ⟨3, _⟩ => show (((b.val * 32 + g.val) * 64 + h.val) * 64 + w.val) / 64 % 64 = h.val; omega
  | ⟨4, _⟩ => show (((b.val * 32 + g.val) * 64 + h.val) * 64 + w.val) % 64 = w.val; omega

/-- Tap 6, weight side: the weights' slice `k = 6`, broadcast over the 8 channels of a group, read at `(b, g, cg, h, w)`,
    is the weight `(b, g, 6, h, w)`. -/
theorem wgt_tap6 (x1 : SWgt.Idx → F .f32) (b : Fin 8) (g : Fin 32) (cg : Fin 8) (h w : Fin 64) :
    val_main_v55 (F := F) x1 (ix5 b g cg h w) = x1 (ix5 b g (6 : Fin 9) h w) := by
  have hb : b.val < 8 := b.isLt
  have hg : g.val < 32 := g.isLt
  have hh : h.val < 64 := h.isLt
  have hw : w.val < 64 := w.isLt
  rw [val_main_v55_apply, val_main_v54_apply, val_main_v53_apply, val_main_v52_apply]
  congr 1
  funext a; apply Fin.ext
  match a with
  | ⟨0, _⟩ => show (((b.val * 32 + g.val) * 64 + h.val) * 64 + w.val) / 131072 = b.val; omega
  | ⟨1, _⟩ => show (((b.val * 32 + g.val) * 64 + h.val) * 64 + w.val) / 4096 % 32 = g.val; omega
  | ⟨2, _⟩ => show 6 + 0 = 6; omega
  | ⟨3, _⟩ => show (((b.val * 32 + g.val) * 64 + h.val) * 64 + w.val) / 64 % 64 = h.val; omega
  | ⟨4, _⟩ => show (((b.val * 32 + g.val) * 64 + h.val) * 64 + w.val) % 64 = w.val; omega

/-- Tap 7, weight side: the weights' slice `k = 7`, broadcast over the 8 channels of a group, read at `(b, g, cg, h, w)`,
    is the weight `(b, g, 7, h, w)`. -/
theorem wgt_tap7 (x1 : SWgt.Idx → F .f32) (b : Fin 8) (g : Fin 32) (cg : Fin 8) (h w : Fin 64) :
    val_main_v63 (F := F) x1 (ix5 b g cg h w) = x1 (ix5 b g (7 : Fin 9) h w) := by
  have hb : b.val < 8 := b.isLt
  have hg : g.val < 32 := g.isLt
  have hh : h.val < 64 := h.isLt
  have hw : w.val < 64 := w.isLt
  rw [val_main_v63_apply, val_main_v62_apply, val_main_v61_apply, val_main_v60_apply]
  congr 1
  funext a; apply Fin.ext
  match a with
  | ⟨0, _⟩ => show (((b.val * 32 + g.val) * 64 + h.val) * 64 + w.val) / 131072 = b.val; omega
  | ⟨1, _⟩ => show (((b.val * 32 + g.val) * 64 + h.val) * 64 + w.val) / 4096 % 32 = g.val; omega
  | ⟨2, _⟩ => show 7 + 0 = 7; omega
  | ⟨3, _⟩ => show (((b.val * 32 + g.val) * 64 + h.val) * 64 + w.val) / 64 % 64 = h.val; omega
  | ⟨4, _⟩ => show (((b.val * 32 + g.val) * 64 + h.val) * 64 + w.val) % 64 = w.val; omega

/-- Tap 8, weight side: the weights' slice `k = 8`, broadcast over the 8 channels of a group, read at `(b, g, cg, h, w)`,
    is the weight `(b, g, 8, h, w)`. -/
theorem wgt_tap8 (x1 : SWgt.Idx → F .f32) (b : Fin 8) (g : Fin 32) (cg : Fin 8) (h w : Fin 64) :
    val_main_v71 (F := F) x1 (ix5 b g cg h w) = x1 (ix5 b g (8 : Fin 9) h w) := by
  have hb : b.val < 8 := b.isLt
  have hg : g.val < 32 := g.isLt
  have hh : h.val < 64 := h.isLt
  have hw : w.val < 64 := w.isLt
  rw [val_main_v71_apply, val_main_v70_apply, val_main_v69_apply, val_main_v68_apply]
  congr 1
  funext a; apply Fin.ext
  match a with
  | ⟨0, _⟩ => show (((b.val * 32 + g.val) * 64 + h.val) * 64 + w.val) / 131072 = b.val; omega
  | ⟨1, _⟩ => show (((b.val * 32 + g.val) * 64 + h.val) * 64 + w.val) / 4096 % 32 = g.val; omega
  | ⟨2, _⟩ => show 8 + 0 = 8; omega
  | ⟨3, _⟩ => show (((b.val * 32 + g.val) * 64 + h.val) * 64 + w.val) / 64 % 64 = h.val; omega
  | ⟨4, _⟩ => show (((b.val * 32 + g.val) * 64 + h.val) * 64 + w.val) % 64 = w.val; omega

/-- The running sum starts at the zero word. -/
theorem acc0 (i : S8x32x8x64x64.Idx) : val_main_v1 (F := F) i = FloatOps.ofBits .f32 0x00000000#32 := by
  rw [val_main_v1_apply, val_main_cst_apply]

/-- THE REFERENCE'S RESULT is the dynamic convolution of its two arguments, framed by the converted integer `0`. -/
theorem result_eq_conv (x0 : SImg.Idx → F .f32) (x1 : SWgt.Idx → F .f32) :
    val_main_v74 (F := F) x0 x1 = conv (FloatOps.sitofp .f32 (0#32 : BitVec 32)) x0 x1 := by
  funext i
  obtain ⟨b, c, h, w, rfl⟩ : ∃ (b : Fin 8) (c : Fin 256) (h w : Fin 64), i = ix4 b c h w := ⟨i 0, i 1, i 2, i 3, eq_ix4 i⟩
  have hb : b.val < 8 := b.isLt
  have hc : c.val < 256 := c.isLt
  have hh : h.val < 64 := h.isLt
  have hw : w.val < 64 := w.isLt
  rw [val_main_v74_apply]
  have e : idx_main_v74 (ix4 b c h w) = ix5 b (⟨c.val / 8, by omega⟩ : Fin 32) (⟨c.val % 8, by omega⟩ : Fin 8) h w := by
    funext a; apply Fin.ext
    match a with
    | ⟨0, _⟩ => show (((b.val * 256 + c.val) * 64 + h.val) * 64 + w.val) / 1048576 = b.val; omega
    | ⟨1, _⟩ => show (((b.val * 256 + c.val) * 64 + h.val) * 64 + w.val) / 32768 % 32 = c.val / 8; omega
    | ⟨2, _⟩ => show (((b.val * 256 + c.val) * 64 + h.val) * 64 + w.val) / 4096 % 8 = c.val % 8; omega
    | ⟨3, _⟩ => show (((b.val * 256 + c.val) * 64 + h.val) * 64 + w.val) / 64 % 64 = h.val; omega
    | ⟨4, _⟩ => show (((b.val * 256 + c.val) * 64 + h.val) * 64 + w.val) % 64 = w.val; omega
  rw [e]
  rw [val_main_v73_apply, val_main_v72_apply, val_main_v65_apply, val_main_v64_apply, val_main_v57_apply, val_main_v56_apply, val_main_v49_apply, val_main_v48_apply, val_main_v41_apply, val_main_v40_apply, val_main_v33_apply, val_main_v32_apply, val_main_v25_apply, val_main_v24_apply, val_main_v17_apply, val_main_v16_apply, val_main_v9_apply, val_main_v8_apply]
  rw [acc0, img_tap0, wgt_tap0, img_tap1, wgt_tap1, img_tap2, wgt_tap2, img_tap3, wgt_tap3, img_tap4, wgt_tap4, img_tap5, wgt_tap5, img_tap6, wgt_tap6, img_tap7, wgt_tap7, img_tap8, wgt_tap8]
  rfl

end Cert.ReferenceIdeal.AsConv

end
-- ==== Proof.lean ====
/-
  A per-pixel dynamic 3×3 convolution (32 groups of 8 channels; image `[8, 256, 64, 64]`, weights `[8, 32, 9, 64, 64]`):
  the kernel against its jnp reference, over the extended reals.

  Both programs compute, at `(b, c, h, w)`, the zero word plus the nine products `P(h + i, w + j) · W(b, c / 8, 3 i + j, h, w)`
  added left to right in tap order, `P` the channel framed by one ring of zeros (Proof/Conv.lean, `conv`). The kernel does
  it block by block — grid point `(b, gb)` frames its 128-channel block by two concatenations with zero slabs and takes
  the nine shifted slices of the framed block (Proof/Framed.lean, Proof/KernelConv.lean over the generated reading of the
  store's payload) —; the reference pads the whole image once, slices it nine times and regroups the channels
  (Proof/RefConv.lean over the generated stage lemmas). The two padding values differ as terms — the zero word against the
  integer `0` converted — and are one extended real (`pad_values_eq`); nothing else separates the two sides, so the claim
  needs no law of the arithmetic and never opens the precondition.
  The three frames are the generated ones (the reference's its generated run with the result dropped); the idealization
  rewrote nothing, so `preserves` is `True`.
-/
import proofs.«163326_j54769422958614_1_alg».proof.Defs
import proofs.«163326_j54769422958614_1_alg».proof.Proof.Gen.Kernel
import proofs.«163326_j54769422958614_1_alg».proof.Proof.Gen.Kernel.Skeleton
import proofs.«163326_j54769422958614_1_alg».proof.Proof.Gen.Kernel.Launch
import proofs.«163326_j54769422958614_1_alg».proof.Proof.Gen.Kernel.Points
import proofs.«163326_j54769422958614_1_alg».proof.Proof.Gen.Kernel.Frame
import proofs.«163326_j54769422958614_1_alg».proof.Proof.Gen.KernelIdeal
import proofs.«163326_j54769422958614_1_alg».proof.Proof.Gen.KernelIdeal.Skeleton
import proofs.«163326_j54769422958614_1_alg».proof.Proof.Gen.KernelIdeal.Launch
import proofs.«163326_j54769422958614_1_alg».proof.Proof.Gen.KernelIdeal.Points
import proofs.«163326_j54769422958614_1_alg».proof.Proof.Gen.KernelIdeal.Frame
import proofs.«163326_j54769422958614_1_alg».proof.Proof.Gen.ReferenceIdeal
import proofs.«163326_j54769422958614_1_alg».proof.Proof.Gen.Pre_finite_inputs
import proofs.«163326_j54769422958614_1_alg».proof.Proof.Gen.ReferenceIdeal.Run
import proofs.«163326_j54769422958614_1_alg».proof.Proof.Gen.ReferenceIdeal.Read
import proofs.«163326_j54769422958614_1_alg».proof.Proof.Conv
import proofs.«163326_j54769422958614_1_alg».proof.Proof.KernelConv
import proofs.«163326_j54769422958614_1_alg».proof.Proof.RefConv
import Idealize.ShloMosaic.Adequacy
import Idealize.ShloMosaic.Init

noncomputable section

namespace Cert.Proof

open Idealize.ShloMosaic Idealize.SL.Sem Cert.DynConv

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at `conv` of the arguments framed by `0`: the kernel's by its blocks
    (`KernelIdeal.AsConv.run`), the reference's by its stages (`ReferenceIdeal.AsConv.result_eq_conv`), its padding value the
    same extended real (`pad_values_eq`), at arguments that agree. -/
theorem algebraic : Cert.algebraic_KernelIdeal_ReferenceIdeal := by
  intro m ρ m' ρ' _ hagree
  refine ⟨fun c => conv (FloatOps.ofBits (F := Ideal) .f32 0x00000000#32) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.AsConv.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq, Cert.ReferenceIdeal.AsConv.result_eq_conv, pad_values_eq,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
